-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel

variable [Facts]

def fn {F : FTy → Type} [FloatOps F] (main_arg0 : FVec F S8192x128 .f32) (main_arg1 : FVec F S8192x128 .f32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  let main_v4 : FVec F S8192x128 .f32 := Host.absf main_arg1
  let main_cst_0 : FVec F S_ .f32 := constant S_ .f32 0x7F800000#32
  let main_v5 : FVec F S8192x128 .f32 := broadcastInDim S8192x128 ![] bcast_S_S8192x128 main_cst_0
  let main_v6 : IVec S8192x128 1 := cmpf .olt main_v4 main_v5
  let main_c_1 : IVec S_ 1 := constantI S_ 1 1#1
  let main_v7 : IVec S_ 1 := (fun x v => Host.reduce IntOp.andi x v reducesTo_S8192x128_S_d0_1 h_S_) main_v6 main_c_1
  let main_v8 : IVec S_ 1 := andi main_v3 main_v7
  main_v8
-- ==== Kernel.lean ====
abbrev S8192x128 : Shape := ⟨2, ![8192, 128]⟩
abbrev S8192x8192 : Shape := ⟨2, ![8192, 8192]⟩
abbrev S1024x128 : Shape := ⟨2, ![1024, 128]⟩
abbrev S2048x128 : Shape := ⟨2, ![2048, 128]⟩
abbrev S1024x2048 : Shape := ⟨2, ![1024, 2048]⟩
abbrev S1024 : Shape := ⟨1, ![1024]⟩
abbrev S1024x1 : Shape := ⟨2, ![1024, 1]⟩
abbrev S2048 : Shape := ⟨1, ![2048]⟩
abbrev S2048x1 : Shape := ⟨2, ![2048, 1]⟩
abbrev S1x2048 : Shape := ⟨2, ![1, 2048]⟩

abbrev nBuf : Space → Nat
  | .hbm => 3
  | .vmem => 6
  | .smem => 0
  | _ => 0

abbrev bufTy : (tb : Table) → Fin (tcTables nBuf tb) → BufTy
  | .hbm, ⟨0, _⟩ => ⟨S8192x128, .f32⟩
  | .hbm, ⟨1, _⟩ => ⟨S8192x128, .f32⟩
  | .hbm, ⟨2, _⟩ => ⟨S8192x8192, .f32⟩
  | .local _ .vmem, ⟨0, _⟩ => ⟨S1024x128, .f32⟩
  | .local _ .vmem, ⟨1, _⟩ => ⟨S1024x128, .f32⟩
  | .local _ .vmem, ⟨2, _⟩ => ⟨S2048x128, .f32⟩
  | .local _ .vmem, ⟨3, _⟩ => ⟨S2048x128, .f32⟩
  | .local _ .vmem, ⟨4, _⟩ => ⟨S1024x2048, .f32⟩
  | .local _ .vmem, ⟨5, _⟩ => ⟨S1024x2048, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S1024x128_S1024x128_0_0 : ∀ a, (![0, 0] : Fin 2 → Nat) a + S1024x128.size a ≤ S1024x128.size a
  h_S1024x128 : 0 < S1024x128.numel
  inb_S2048x128_S2048x128_0_0 : ∀ a, (![0, 0] : Fin 2 → Nat) a + S2048x128.size a ≤ S2048x128.size a
  h_S2048x128 : 0 < S2048x128.numel
  bitsLt_bf16_f32 : FTy.bits .bf16 < FTy.bits .f32
  reduces_S1024x128_S1024 : S1024x128.Reduces [1] S1024
  shapeCasts_S1024_S1024x1 : S1024.ShapeCasts S1024x1
  reduces_S2048x128_S2048 : S2048x128.Reduces [1] S2048
  shapeCasts_S2048_S2048x1 : S2048.ShapeCasts S2048x1
  transposes_S2048x1_p1_0_S1x2048 : S2048x1.Transposes [1, 0] S1x2048
  broadcasts_S1024x1_S1024x2048 : S1024x1.Broadcasts S1024x2048
  broadcasts_S1x2048_S1024x2048 : S1x2048.Broadcasts S1024x2048
  inb_S1024x2048_S1024x2048_0_0 : ∀ a, (![0, 0] : Fin 2 → Nat) a + S1024x2048.size a ≤ S1024x2048.size a
  h_S1024x2048 : 0 < S1024x2048.numel
  dot_S1024x128_S2048x128_S1024x2048_1_1_0_0_n_n_wf : DotDims.WF S1024x128 S2048x128 S1024x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S8192x128.size a
  hwx0_0 : ∀ i : grid0.Coords, EltTy.bits .f32 = 32 ∨ (Rect.block (s := S8192x128) S1024x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x128.size a ≤ S8192x128.size a
  hwx0_1 : ∀ i : grid0.Coords, EltTy.bits .f32 = 32 ∨ (Rect.block (s := S8192x128) S2048x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x2048.size a ≤ S8192x8192.size a
  hwx0_2 : ∀ i : grid0.Coords, EltTy.bits .f32 = 32 ∨ (Rect.block (s := S8192x8192) S1024x2048.size (cc0_transform_2 i) (hinb0_2 i)).WholeWords (EltTy.packing .f32)

variable [Facts₀]

def dot_S1024x128_S2048x128_S1024x2048_1_1_0_0_n_n : DotDims S1024x128 S2048x128 S1024x2048 where
  lhsContracting := [1]
  rhsContracting := [1]
  lhsNonContracting := [0]
  rhsNonContracting := [0]
  lhsBatch := []
  rhsBatch := []
  wf := dot_S1024x128_S2048x128_S1024x2048_1_1_0_0_n_n_wf

abbrev win0_0 : Pipeline.Window sig grid0 :=
  Pipeline.Window.ofSpec (Memref.whole main_arg0) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8192x128 : Shape := ⟨2, ![8192, 128]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S128x8192 : Shape := ⟨2, ![128, 8192]⟩

abbrev nBuf : Space → Nat
  | .hbm => 23
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192x128, .f32⟩
  | .hbm, ⟨2, _⟩ => ⟨S8192x128, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S8192x128, .f32⟩
  | .hbm, ⟨7, _⟩ => ⟨S_, .f32⟩
  | .hbm, ⟨8, _⟩ => ⟨S8192, .f32⟩
  | .hbm, ⟨9, _⟩ => ⟨S1x8192, .f32⟩
  | .hbm, ⟨10, _⟩ => ⟨S8192x8192, .f32⟩
  | .hbm, ⟨11, _⟩ => ⟨S8192x8192, .f32⟩
  | .hbm, ⟨12, _⟩ => ⟨S8192x8192, .f32⟩
  | .hbm, ⟨13, _⟩ => ⟨S128x8192, .f32⟩
  | .hbm, ⟨14, _⟩ => ⟨S8192x8192, .f32⟩
  | .hbm, ⟨15, _⟩ => ⟨S_, .f32⟩
  | .hbm, ⟨16, _⟩ => ⟨S8192x8192, .f32⟩
  | .hbm, ⟨17, _⟩ => ⟨S8192x8192, .f32⟩
  | .hbm, ⟨18, _⟩ => ⟨S8192x8192, .f32⟩
  | .hbm, ⟨19, _⟩ => ⟨S_, .f32⟩
  | .hbm, ⟨20, _⟩ => ⟨S8192x8192, .f32⟩
  | .hbm, ⟨21, _⟩ => ⟨S8192x8192, .f32⟩
  | .hbm, ⟨22, _⟩ => ⟨S8192x8192, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]

class Facts₀ : Prop where
  reducesTo_S8192x128_S8192_d1 : S8192x128.ReducesTo [1] S8192
  h_S_ : 0 < S_.numel
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  transposes_S8192x128_S128x8192_1_0 : S8192x128.Transposes [1, 0] S128x8192
  bcast_S_S8192x8192 : S_.BroadcastsInDim S8192x8192 (![] : Fin 0 → Fin S8192x8192.rank)
  dot_S8192x128_S128x8192_S8192x8192_1_0_0_1_n_n_wf : DotDims.WF S8192x128 S128x8192 S8192x8192 [1] [0] [0] [1] [] []

variable [Facts₀]

def dot_S8192x128_S128x8192_S8192x8192_1_0_0_1_n_n : DotDims S8192x128 S128x8192 S8192x8192 where
  lhsContracting := [1]
  rhsContracting := [0]
  lhsNonContracting := [0]
  rhsNonContracting := [1]
  lhsBatch := []
  rhsBatch := []
  wf := dot_S8192x128_S128x8192_S8192x8192_1_0_0_1_n_n_wf

class Facts : Prop extends Facts₀ where

variable [Facts]
-- ==== Proof.LibColumn.lean ====
/-
  Two layout operations on a COLUMN, read at an index given by its coordinates. A sum over a matrix's
  last axis that keeps the axis (`keepdims`) passes through both on its way to a full matrix:
  • a vector `[a]` cast to the column `[a, 1]` reads, at `(i, u)`, the vector at `i`, whatever the unit
    coordinate `u` (the two indices have the same row-major position, `i · 1 + 0 = i`);
  • a column `[a, 1]` broadcast over `b` columns reads, at `(p, c)`, the column's entry of row `p`.
  Both are the general read-at-an-index lemmas of the layout operations with the index arithmetic done.
-/
import Idealize.ShloMosaic.Lib.Pipeline.Value
import Idealize.ShloMosaic.Lib.ValueIdx

namespace Cert.Lib.Column

open Idealize.ShloMosaic Idealize.ShloMosaic.ValueIdx

variable {α : Type}

/-- An `[a]` array cast to the column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib.Column
-- ==== Proof.GramSpec.lean ====
/-
  The Gaussian (radial basis function) Gram matrix of two point sets, as ONE function of the two arrays.
  For row `r` of `a` and row `s` of `b`, both arrays `[8192, 128]`, the entry at `(r, s)` is
      exp (c₋₁ · ((‖a r‖² + ‖b s‖²) − c₂ · ⟨a r, b s⟩)),
  the squared norms and the inner product plain sums over the 128 features, read on the extended reals.
  The two scalars `c₋₁` and `c₂` are kept as the words `0xBF800000` and `0x40000000`: both programs
  spell the same words in the same places, so what they denote is never needed.
-/
import Idealize.ShloMosaic.PureOps.Ideal
import Idealize.ShloMosaic.Lib.ValueIdx

noncomputable section

namespace Cert.Gram

open Idealize.ShloMosaic Idealize.ShloMosaic.ValueIdx

/-- A point set: 8192 points of 128 features. -/
abbrev Pts : Shape := ⟨2, ![8192, 128]⟩
/-- The matrix of all pairs. -/
abbrev Pairs : Shape := ⟨2, ![8192, 8192]⟩

/-- The squared norm of row `r`: the sum of its squared features. -/
def sqNorm (x : Pts.Idx → EReal) (r : Fin 8192) : EReal := ∑ k : Fin 128, x (ix2 r k) * x (ix2 r k)

/-- The inner product of row `r` of `a` with row `s` of `b`. -/
def inner (a b : Pts.Idx → EReal) (r s : Fin 8192) : EReal := ∑ k : Fin 128, a (ix2 r k) * b (ix2 s k)

/-- The exponent's argument at the pair `(r, s)`: `c₋₁ · ((‖a r‖² + ‖b s‖²) − c₂ · ⟨a r, b s⟩)`. -/
def arg (a b : Pts.Idx → EReal) (r s : Fin 8192) : EReal :=
  Ideal.ofBits .f32 0xBF800000#32 * ((sqNorm a r + sqNorm b s) - Ideal.ofBits .f32 0x40000000#32 * inner a b r s)

/-- The Gram matrix: the exponential of that argument at every pair. -/
def gram (a b : Pts.Idx → EReal) : Pairs.Idx → EReal := fun i => Ideal.exp (arg a b (i 0) (i 1))

theorem gram_ix2 (a b : Pts.Idx → EReal) (r s : Fin 8192) : gram a b (ix2 r s) = Ideal.exp (arg a b r s) := rfl

end Cert.Gram

end
-- ==== Proof.GramBody.lean ====
/-
  What the kernel's body computes for one block of the Gram matrix, entry by entry.
  The body holds 1024 rows of `a` (the block `x0`) and 2048 rows of `b` (the block `x1`) and stores, at `(p, q)`,
      exp (c₋₁ · ((‖x0 p‖² + ‖x1 q‖²) − c₂ · ⟨x0 p, x1 q⟩)).
  Its three ingredients are read at an index one at a time:
  • the inner products come from a matrix product that contracts the FEATURE axis of both blocks, into a zero
    accumulator, on blocks narrowed to a shorter float format — on the extended reals the narrowing is the identity
    and the product is the plain sum over the 128 features;
  • `‖x0 p‖²` is a lane sum of squares, made a column and repeated along the row;
  • `‖x1 q‖²` is a lane sum of squares, made a column, turned into a row and repeated down the column.
-/
import proofs.«179862_j65481071409271_1_alg».proof.Proof.Gen.KernelIdeal.Skeleton
import proofs.«179862_j65481071409271_1_alg».proof.Proof.LibColumn
import proofs.«179862_j65481071409271_1_alg».proof.Proof.GramSpec
import Idealize.ShloMosaic.Lib.Pipeline.Value
import Idealize.ShloMosaic.Lib.ValueIdx
import Idealize.ShloMosaic.Lib.ValueLayout
import Idealize.ShloMosaic.PureOps.Ideal.Laws

noncomputable section

namespace Cert.Gram.Body

open Cert.KernelIdeal Cert.KernelIdeal.Gen Idealize.ShloMosaic Idealize.ShloMosaic.ValueIdx Cert.Lib.Column

/-! ## The matrix product: both blocks contracted along their feature axis -/

/-- The left operand is read at the output's ROW … -/
theorem lhs_row (i : S1024x2048.Idx) (κ : dot_S1024x128_S2048x128_S1024x2048_1_1_0_0_n_n.contr.Idx) :
    (dot_S1024x128_S2048x128_S1024x2048_1_1_0_0_n_n.lhsIdx i κ 0).val = (i 0).val := by
  unfold DotDims.lhsIdx
  rw [dif_neg (show ¬(0 : Fin S1024x128.rank) ∈ dot_S1024x128_S2048x128_S1024x2048_1_1_0_0_n_n.lhsBatch by decide), dif_pos (show (0 : Fin S1024x128.rank) ∈ dot_S1024x128_S2048x128_S1024x2048_1_1_0_0_n_n.lhsNonContracting by decide)]
  rfl
/-- … and at the contracted feature; -/
theorem lhs_feature (i : S1024x2048.Idx) (κ : dot_S1024x128_S2048x128_S1024x2048_1_1_0_0_n_n.contr.Idx) :
    (dot_S1024x128_S2048x128_S1024x2048_1_1_0_0_n_n.lhsIdx i κ 1).val = (κ ⟨0, by decide⟩).val :=
  dot_S1024x128_S2048x128_S1024x2048_1_1_0_0_n_n.lhsIdx_val_of_single rfl i κ
/-- the right operand at the output's COLUMN (its own row: the product is with the transposed block) … -/
theorem rhs_row (i : S1024x2048.Idx) (κ : dot_S1024x128_S2048x128_S1024x2048_1_1_0_0_n_n.contr.Idx) :
    (dot_S1024x128_S2048x128_S1024x2048_1_1_0_0_n_n.rhsIdx i κ 0).val = (i 1).val := by
  unfold DotDims.rhsIdx
  rw [dif_neg (show ¬(0 : Fin S2048x128.rank) ∈ dot_S1024x128_S2048x128_S1024x2048_1_1_0_0_n_n.rhsBatch by decide), dif_pos (show (0 : Fin S2048x128.rank) ∈ dot_S1024x128_S2048x128_S1024x2048_1_1_0_0_n_n.rhsNonContracting by decide)]
  rfl
/-- … and at the same contracted feature. -/
theorem rhs_feature (i : S1024x2048.Idx) (κ : dot_S1024x128_S2048x128_S1024x2048_1_1_0_0_n_n.contr.Idx) :
    (dot_S1024x128_S2048x128_S1024x2048_1_1_0_0_n_n.rhsIdx i κ 1).val = (κ ⟨0, by decide⟩).val :=
  dot_S1024x128_S2048x128_S1024x2048_1_1_0_0_n_n.rhsIdx_val_of_single rfl i κ

/-- So the product into a zero accumulator is, at `(p, q)`, the inner product of row `p` of the left block with row `q`
    of the right block. -/
theorem innerProducts_at (l : FVec Ideal S1024x128 .bf16) (r : FVec Ideal S2048x128 .bf16) (p : Fin 1024) (q : Fin 2048) :
    matmul dot_S1024x128_S2048x128_S1024x2048_1_1_0_0_n_n none l r (constant (F := Ideal) S1024x2048 .f32 0x00000000#32) (ix2 p q)
      = ∑ k : Fin 128, l (ix2 p k) * r (ix2 q k) := by
  simp only [matmul]
  rw [Ideal.matmul_constant_zero_apply, ← Equiv.sum_comp (contrEquiv1 dot_S1024x128_S2048x128_S1024x2048_1_1_0_0_n_n 128 rfl rfl).symm]
  refine Finset.sum_congr rfl fun k _ => ?_
  have hk := contrEquiv1_symm_val dot_S1024x128_S2048x128_S1024x2048_1_1_0_0_n_n 128 rfl rfl k
  have el : dot_S1024x128_S2048x128_S1024x2048_1_1_0_0_n_n.lhsIdx (ix2 p q) ((contrEquiv1 dot_S1024x128_S2048x128_S1024x2048_1_1_0_0_n_n 128 rfl rfl).symm k) = ix2 p k := funext fun a => Fin.ext (by
    match a with
    | ⟨0, _⟩ => exact lhs_row _ _
    | ⟨1, _⟩ => exact (lhs_feature _ _).trans hk)
  have er : dot_S1024x128_S2048x128_S1024x2048_1_1_0_0_n_n.rhsIdx (ix2 p q) ((contrEquiv1 dot_S1024x128_S2048x128_S1024x2048_1_1_0_0_n_n 128 rfl rfl).symm k) = ix2 q k := funext fun a => Fin.ext (by
    match a with
    | ⟨0, _⟩ => exact rhs_row _ _
    | ⟨1, _⟩ => exact (rhs_feature _ _).trans hk)
  rw [el, er]

/-! ## The squared norms -/

/-- The lane sum of the squares of a 1024-row block, at row `p`: the sum over the features. -/
theorem rowSquares_at (x : FVec Ideal S1024x128 .f32) (hφ : FKind.Formats .f32) (hacc : (0x00000000#32 : BitVec (FTy.bits .f32)) = FKind.add.neutral .f32 hφ)
    (p : Fin 1024) :
    multiReduction .add [1] S1024 (mulf x x) 0x00000000#32 reduces_S1024x128_S1024 hφ hacc (ix1 p) = ∑ k : Fin 128, x (ix2 p k) * x (ix2 p k) := by
  refine (Ideal.multiReduction_add_single (mulf x x) 0x00000000#32 reduces_S1024x128_S1024 hφ hacc (ix1 p)).trans ?_
  refine Finset.sum_congr rfl fun k _ => ?_
  have e : reduces_S1024x128_S1024.lift (ix1 p) k = ix2 p k := funext fun a => Fin.ext (by match a with | ⟨0, _⟩ => rfl | ⟨1, _⟩ => rfl)
  rw [e]; rfl

/-- The same for a 2048-row block. -/
theorem colSquares_at (x : FVec Ideal S2048x128 .f32) (hφ : FKind.Formats .f32) (hacc : (0x00000000#32 : BitVec (FTy.bits .f32)) = FKind.add.neutral .f32 hφ)
    (q : Fin 2048) :
    multiReduction .add [1] S2048 (mulf x x) 0x00000000#32 reduces_S2048x128_S2048 hφ hacc (ix1 q) = ∑ k : Fin 128, x (ix2 q k) * x (ix2 q k) := by
  refine (Ideal.multiReduction_add_single (mulf x x) 0x00000000#32 reduces_S2048x128_S2048 hφ hacc (ix1 q)).trans ?_
  refine Finset.sum_congr rfl fun k _ => ?_
  have e : reduces_S2048x128_S2048.lift (ix1 q) k = ix2 q k := funext fun a => Fin.ext (by match a with | ⟨0, _⟩ => rfl | ⟨1, _⟩ => rfl)
  rw [e]; rfl

/-- A vector of 1024 values made a column and repeated along the row reads, at `(p, q)`, its value at `p`. -/
theorem alongRow_at (v : FVec Ideal S1024 .f32) (p : Fin 1024) (q : Fin 2048) :
    broadcastTo S1024x2048 (shapeCast S1024x1 v shapeCasts_S1024_S1024x1) broadcasts_S1024x1_S1024x2048 (ix2 p q) = v (ix1 p) :=
  (broadcastTo_a1_ab_apply _ broadcasts_S1024x1_S1024x2048 p q).trans (shapeCast_a_a1_apply v shapeCasts_S1024_S1024x1 p 0)

/-- A vector of 2048 values made a column, turned into a row and repeated down the column reads, at `(p, q)`, its
    value at `q`. -/
theorem downColumn_at (v : FVec Ideal S2048 .f32) (p : Fin 1024) (q : Fin 2048) :
    broadcastTo S1024x2048 (transpose S1x2048 [1, 0] (shapeCast S2048x1 v shapeCasts_S2048_S2048x1) transposes_S2048x1_p1_0_S1x2048) broadcasts_S1x2048_S1024x2048 (ix2 p q) = v (ix1 q) :=
  (broadcastTo_1b_ab_apply _ broadcasts_S1x2048_S1024x2048 p q).trans
    ((transpose_ix2_apply _ transposes_S2048x1_p1_0_S1x2048 (0 : Fin 1) q).trans (shapeCast_a_a1_apply v shapeCasts_S2048_S2048x1 q 0))

/-! ## The body's stored value at an entry of the block -/

/-- The entry `(p, q)` of the block the body stores, from the two blocks it loaded. -/
theorem stored_at (x0 : FVec Ideal S1024x128 .f32) (x1 : FVec Ideal S2048x128 .f32) (p : Fin 1024) (q : Fin 2048) :
    k0_pay1 (F := Ideal) x0 x1 (ix2 p q)
      = Ideal.exp (Ideal.ofBits .f32 0xBF800000#32 * ((∑ k : Fin 128, x0 (ix2 p k) * x0 (ix2 p k) + ∑ k : Fin 128, x1 (ix2 q k) * x1 (ix2 q k))
          - Ideal.ofBits .f32 0x40000000#32 * ∑ k : Fin 128, x0 (ix2 p k) * x1 (ix2 q k))) := by
  have hA := (alongRow_at (multiReduction .add [1] S1024 (mulf x0 x0) 0x00000000#32 reduces_S1024x128_S1024 (.inl rfl) rfl) p q).trans
    (rowSquares_at x0 (.inl rfl) rfl p)
  have hB := (downColumn_at (multiReduction .add [1] S2048 (mulf x1 x1) 0x00000000#32 reduces_S2048x128_S2048 (.inl rfl) rfl) p q).trans
    (colSquares_at x1 (.inl rfl) rfl q)
  have hM := innerProducts_at (truncf .bf16 x0 bitsLt_bf16_f32) (truncf .bf16 x1 bitsLt_bf16_f32) p q
  exact congrArg Ideal.exp (congrArg (Ideal.ofBits .f32 0xBF800000#32 * ·)
    (congr (congrArg HSub.hSub (congr (congrArg HAdd.hAdd hA) hB)) (congrArg (Ideal.ofBits .f32 0x40000000#32 * ·) hM)))

/-- When the loaded blocks are rows of two point sets `A` and `B` — row `p` of the left block is row `R` of `A`, row `q`
    of the right block is row `S` of `B` — the stored entry `(p, q)` is the Gram matrix's entry at the pair `(R, S)`. -/
theorem stored_is_gram (A B : Pts.Idx → EReal) (x0 : FVec Ideal S1024x128 .f32) (x1 : FVec Ideal S2048x128 .f32)
    (i : Pairs.Idx) (R S : Fin 8192) (hi : i = ix2 R S) (p : Fin 1024) (q : Fin 2048)
    (h0 : ∀ k : Fin 128, x0 (ix2 p k) = A (ix2 R k)) (h1 : ∀ k : Fin 128, x1 (ix2 q k) = B (ix2 S k)) :
    k0_pay1 (F := Ideal) x0 x1 (ix2 p q) = gram A B i := by
  subst hi
  rw [stored_at, gram_ix2]
  unfold arg sqNorm inner
  simp only [h0, h1]

end Cert.Gram.Body

end
-- ==== Proof.GramBlocks.lean ====
/-
  From blocks to the whole matrix. The grid has 8 × 4 points; the point with block indices `(I, J)` loads rows
  `1024·I …` of `a` and rows `2048·J …` of `b` and writes back the `1024 × 2048` block of the result whose corner is
  `(1024·I, 2048·J)`. Entry `(p, q)` of that block is the Gram matrix's entry at `(1024·I + p, 2048·J + q)`, because
  row `p` of the first loaded block is row `1024·I + p` of `a` and row `q` of the second is row `2048·J + q` of `b`.
  The 32 blocks tile the `8192 × 8192` result (the pair `(r, s)` lies in the block `(r / 1024, s / 2048)`), so after
  the run the result array IS the Gram matrix of the two arguments.
-/
import proofs.«179862_j65481071409271_1_alg».proof.Proof.Gen.KernelIdeal.Value
import proofs.«179862_j65481071409271_1_alg».proof.Proof.GramBody
import proofs.«179862_j65481071409271_1_alg».proof.Proof.GramSpec
import Idealize.ShloMosaic.Lib.Pipeline.Value

noncomputable section

namespace Cert.Gram.Blocks

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The body's loads and its store start at the origin of their buffers. -/
theorem origin : (![0, 0] : Fin 2 → Nat) = fun _ => 0 := funext fun a => by fin_cases a <;> rfl

/-- The three index maps over the grid: `a`'s block follows the result's block ROW, `b`'s block follows the result's
    block COLUMN, neither moves along the features, and the result's block indices stay below 8 and 4. -/
theorem blockIndices : ∀ t : Fin cfg0.N,
    win0_0.index t (0 : Fin 2) = win0_2.index t (0 : Fin 2) ∧ win0_0.index t (1 : Fin 2) = 0
    ∧ win0_1.index t (0 : Fin 2) = win0_2.index t (1 : Fin 2) ∧ win0_1.index t (1 : Fin 2) = 0
    ∧ win0_2.index t (0 : Fin 2) ≤ 7 ∧ win0_2.index t (1 : Fin 2) ≤ 3 :=
  (by decide +kernel : ∀ t : Fin grid0.N, _)

/-- Every one of the 8 × 4 blocks of the result is some point's. -/
theorem everyBlock : ∀ (I : Fin 8) (J : Fin 4), ∃ t : Fin cfg0.N, win0_2.index t = ![I.val, J.val] :=
  (by decide +kernel : ∀ (I : Fin 8) (J : Fin 4), ∃ t : Fin grid0.N, win0_2.index t = ![I.val, J.val])

/-- What point `t` writes back is block `t` of the Gram matrix of the two argument arrays. -/
theorem flushed_is_gram (c : Dev nD) (t : Fin cfg0.N) :
    (dats m 0 c).flushed 2 t = ((cfg0.win 2).blk t).view.read (Elt Ideal) (gram (V m c main_arg0) (V m c main_arg1)) := by
  rw [Cert.KernelIdeal.Value.flushed2]
  unfold out0_2
  rw [View.canon_unit_zero origin]
  simp only [View.ld_unit_zero (S := S1024x128) origin, View.ld_unit_zero (S := S2048x128) origin]
  obtain ⟨e0, e1, e2, e3, e4, e5⟩ := blockIndices t
  funext j
  obtain ⟨p, q, rfl⟩ : ∃ (p : Fin 1024) (q : Fin 2048), j = ix2 p q := ⟨j 0, j 1, eq_ix2 j⟩
  show k0_pay1 (F := Ideal) (iblk m c 0 t) (iblk m c 1 t) (ix2 p q)
    = gram (V m c main_arg0) (V m c main_arg1) (((cfg0.win 2).blk t).view.emb (ix2 p q))
  have hp : p.val < 1024 := p.isLt
  have hq : q.val < 2048 := q.isLt
  refine Cert.Gram.Body.stored_is_gram (V m c main_arg0) (V m c main_arg1) (iblk m c 0 t) (iblk m c 1 t) _
    ⟨win0_2.index t (0 : Fin 2) * 1024 + p.val, by omega⟩ ⟨win0_2.index t (1 : Fin 2) * 2048 + q.val, by omega⟩ ?_ p q (fun k => ?_) (fun k => ?_)
  · funext a; apply Fin.ext
    match a with
    | ⟨0, _⟩ => show win0_2.index t (0 : Fin 2) * 1024 + 1 * p.val = win0_2.index t (0 : Fin 2) * 1024 + p.val; omega
    | ⟨1, _⟩ => show win0_2.index t (1 : Fin 2) * 2048 + 1 * q.val = win0_2.index t (1 : Fin 2) * 2048 + q.val; omega
  · show V m c main_arg0 (((cfg0.win 0).blk t).view.emb (ix2 p k)) = V m c main_arg0 _
    refine congrArg (V m c main_arg0) (funext fun a => Fin.ext ?_)
    have hk : k.val < 128 := k.isLt
    match a with
    | ⟨0, _⟩ => show win0_0.index t (0 : Fin 2) * 1024 + 1 * p.val = win0_2.index t (0 : Fin 2) * 1024 + p.val; omega
    | ⟨1, _⟩ => show win0_0.index t (1 : Fin 2) * 128 + 1 * k.val = k.val; omega
  · show V m c main_arg1 (((cfg0.win 1).blk t).view.emb (ix2 q k)) = V m c main_arg1 _
    refine congrArg (V m c main_arg1) (funext fun a => Fin.ext ?_)
    have hk : k.val < 128 := k.isLt
    match a with
    | ⟨0, _⟩ => show win0_1.index t (0 : Fin 2) * 2048 + 1 * q.val = win0_2.index t (1 : Fin 2) * 2048 + q.val; omega
    | ⟨1, _⟩ => show win0_1.index t (1 : Fin 2) * 128 + 1 * k.val = k.val; omega

/-- A pair is in point `t`'s block iff each of its coordinates is in the block's range on its axis. -/
theorem mem_block (t : Fin cfg0.N) (i : S8192x8192.Idx) :
    i ∈ ((cfg0.win 2).blk t).view.set ↔ ∀ a : Fin 2, win0_2.index t a * S1024x2048.size a ≤ (i a).val ∧ (i a).val < win0_2.index t a * S1024x2048.size a + S1024x2048.size a := by
  show i ∈ ((View.whole main_v0).slice (win0_2.rect t)).set ↔ _
  rw [View.set_slice_whole, Rect.mem_set_unit]
  exact Iff.rfl

/-- The blocks tile the result: the pair `(r, s)` is in the block `(r / 1024, s / 2048)`, which some point writes back. -/
theorem tiled (i : S8192x8192.Idx) : ∃ t : Fin cfg0.N, (cfg0.win 2).flush t = true ∧ i ∈ ((cfg0.win 2).blk t).view.set := by
  have hi0 : (i 0).val < 8192 := (i 0).isLt
  have hi1 : (i 1).val < 8192 := (i 1).isLt
  obtain ⟨t, ht⟩ := everyBlock ⟨(i 0).val / 1024, by omega⟩ ⟨(i 1).val / 2048, by omega⟩
  have q0 : win0_2.index t (0 : Fin 2) = (i 0).val / 1024 := congrFun ht 0
  have q1 : win0_2.index t (1 : Fin 2) = (i 1).val / 2048 := congrFun ht 1
  refine ⟨t, flush0_2 t, ?_⟩
  rw [mem_block]
  intro a
  match a with
  | ⟨0, _⟩ => show win0_2.index t (0 : Fin 2) * 1024 ≤ (i 0).val ∧ (i 0).val < win0_2.index t (0 : Fin 2) * 1024 + 1024; omega
  | ⟨1, _⟩ => show win0_2.index t (1 : Fin 2) * 2048 ≤ (i 1).val ∧ (i 1).val < win0_2.index t (1 : Fin 2) * 2048 + 2048; omega

/-- The result array after the run is the Gram matrix of the two argument arrays. -/
theorem result_is_gram (c : Dev nD) :
    (dats m 0 c).arrAt 2 cfg0.N = gram (m ((c : Thread nD τ).loc main_arg0)) (m ((c : Thread nD τ).loc main_arg1)) :=
  (dats m 0 c).arrAt_eq_of_cover 2 (gram (V m c main_arg0) (V m c main_arg1)) (fun t _ => flushed_is_gram m c t) tiled

/-- The kernel's run, read: the result at the Gram matrix of the arguments, the arguments unchanged. -/
theorem run : θ_run defs (onTc (τ := τ) (main (F := Ideal))) ⟨m, fun _ => 0, ρ⟩ fun r => ∀ c : Dev nD,
      r.2.mem ((c : Thread nD τ).loc main_v0) = gram (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (result_is_gram m c), (h c).2⟩)
    (Cert.KernelIdeal.Value.run_blocks m ρ)

end Cert.Gram.Blocks

end
-- ==== Proof.GramRef.lean ====
/-
  The reference computes the Gram matrix of the specification.
  Read one operation at a time, its result at the pair `(r, s)` is
      exp (c₋₁ · ((0 + Σₖ a[r,k]²  +  0 + Σₖ b[s,k]²) − c₂ · Σₖ a[r,k] · bᵀ[k,s])):
  each squared norm a host sum started from the zero word, spread over the matrix through a column (for `a`) or a
  row (for `b`); the inner product a general product of `a` with the TRANSPOSE of `b`, which reads `b` back at
  `(s, k)`. The zero the sums start from is the extended real `0`, and the rest is the specification term by term.
-/
import proofs.«179862_j65481071409271_1_alg».proof.Proof.Gen.ReferenceIdeal.Read
import proofs.«179862_j65481071409271_1_alg».proof.Proof.GramSpec

noncomputable section

namespace Cert.Gram.Ref

open Cert.ReferenceIdeal Cert.ReferenceIdeal.Gen Cert.ReferenceIdeal.Read Idealize.ShloMosaic Idealize.ShloMosaic.ValueIdx

/-- The squared norms of `a`'s rows, spread along the rows of the matrix: at `(r, s)` the squared norm of row `r`. -/
theorem normsOfA_at (x0 : (⟨S8192x128, .f32⟩ : BufTy).Contents (Elt Ideal)) (r s : Fin 8192) :
    val_main_v6 (F := Ideal) x0 (ix2 r s) = sqNorm x0 r := by
  rw [val_main_v6_apply, val_main_v2_apply, val_main_v1_apply]
  show Ideal.ofBits .f32 0x00000000#32 + _ = ∑ k : Fin 128, x0 (ix2 r k) * x0 (ix2 r k)
  rw [Ideal.ofBits_zero_f32, zero_add]
  refine Finset.sum_congr rfl fun k _ => ?_
  have e : idx_main_v1 (idx_main_v2 (idx_main_v6 (ix2 r s))) k = ix2 r k :=
    funext fun a => Fin.ext (by match a with | ⟨0, _⟩ => rfl | ⟨1, _⟩ => rfl)
  rw [e]; rfl

/-- The squared norms of `b`'s rows, spread down the columns: at `(r, s)` the squared norm of row `s`. -/
theorem normsOfB_at (x1 : (⟨S8192x128, .f32⟩ : BufTy).Contents (Elt Ideal)) (r s : Fin 8192) :
    val_main_v7 (F := Ideal) x1 (ix2 r s) = sqNorm x1 s := by
  rw [val_main_v7_apply, val_main_v5_apply, val_main_v4_apply]
  show Ideal.ofBits .f32 0x00000000#32 + _ = ∑ k : Fin 128, x1 (ix2 s k) * x1 (ix2 s k)
  rw [Ideal.ofBits_zero_f32, zero_add]
  refine Finset.sum_congr rfl fun k _ => ?_
  have e : idx_main_v4 (idx_main_v5 (idx_main_v7 (ix2 r s))) k = ix2 s k :=
    funext fun a => Fin.ext (by match a with | ⟨0, _⟩ => rfl | ⟨1, _⟩ => rfl)
  rw [e]; rfl

/-- The product of `a` with the transpose of `b`: at `(r, s)` the inner product of row `r` of `a` with row `s` of `b`. -/
theorem innerProducts_at (x0 x1 : (⟨S8192x128, .f32⟩ : BufTy).Contents (Elt Ideal)) (r s : Fin 8192) :
    val_main_v10 (F := Ideal) x0 x1 (ix2 r s) = inner x0 x1 r s := by
  rw [val_main_v10_apply]
  show _ = ∑ k : Fin 128, x0 (ix2 r k) * x1 (ix2 s k)
  refine Finset.sum_congr rfl fun k _ => ?_
  rw [val_main_v9_apply]
  have el : lidx_main_v10 (ix2 r s) k = ix2 r k :=
    funext fun a => Fin.ext (by match a with | ⟨0, _⟩ => rfl | ⟨1, _⟩ => rfl)
  have er : idx_main_v9 (ridx_main_v10 (ix2 r s) k) = ix2 s k :=
    funext fun a => Fin.ext (by match a with | ⟨0, _⟩ => rfl | ⟨1, _⟩ => rfl)
  rw [el, er]

/-- The reference's result is the Gram matrix of its two arguments. -/
theorem result_eq_gram (x0 x1 : (⟨S8192x128, .f32⟩ : BufTy).Contents (Elt Ideal)) :
    val_main_v16 (F := Ideal) x0 x1 = gram x0 x1 := by
  funext i
  obtain ⟨r, s, rfl⟩ : ∃ (r s : Fin 8192), i = ix2 r s := ⟨i 0, i 1, eq_ix2 i⟩
  rw [val_main_v16_apply, val_main_v15_apply, val_main_v14_apply, val_main_cst_2_apply, val_main_v13_apply, val_main_v8_apply,
    normsOfA_at, normsOfB_at, val_main_v12_apply, val_main_v11_apply, val_main_cst_1_apply, innerProducts_at]
  rfl

end Cert.Gram.Ref

end
-- ==== Proof.lean ====
/-
  The kernel and its reference compute the same Gaussian Gram matrix of two point sets `a, b : [8192, 128]`:
      out[r, s] = exp (c₋₁ · ((‖a r‖² + ‖b s‖²) − c₂ · ⟨a r, b s⟩)).
  On the extended reals both programs apply the same operations in the same order to the same three literal words
  (the zero the sums start from, `c₂`, `c₋₁`), so no algebraic law beyond `0 + x = x` is needed and the inputs'
  finiteness is never used. What differs is only the arrangement:
  • the kernel works block by block (1024 rows of `a` against 2048 rows of `b`), takes its inner products from a
    matrix product of the two blocks narrowed to a shorter float format (the identity on the extended reals) and
    contracted along the features, and carries `‖b s‖²` from a column to a row by a transpose;
  • the reference works on whole arrays and takes its inner products from a product with the transposed `b`.
  `GramSpec` states the matrix as one function of the two arrays; `GramBody` reads the kernel's stored block entry
  by entry; `GramBlocks` assembles the 32 blocks into the whole result; `GramRef` reads the reference's result.
  The frames are the generated ones; the kernel's idealization rewrote nothing, so it preserves trivially.
-/
import proofs.«179862_j65481071409271_1_alg».proof.Defs
import proofs.«179862_j65481071409271_1_alg».proof.Proof.Gen.Kernel
import proofs.«179862_j65481071409271_1_alg».proof.Proof.Gen.Kernel.Skeleton
import proofs.«179862_j65481071409271_1_alg».proof.Proof.Gen.Kernel.Launch
import proofs.«179862_j65481071409271_1_alg».proof.Proof.Gen.Kernel.Points
import proofs.«179862_j65481071409271_1_alg».proof.Proof.Gen.Kernel.Frame
import proofs.«179862_j65481071409271_1_alg».proof.Proof.Gen.KernelIdeal
import proofs.«179862_j65481071409271_1_alg».proof.Proof.Gen.KernelIdeal.Skeleton
import proofs.«179862_j65481071409271_1_alg».proof.Proof.Gen.KernelIdeal.Launch
import proofs.«179862_j65481071409271_1_alg».proof.Proof.Gen.KernelIdeal.Points
import proofs.«179862_j65481071409271_1_alg».proof.Proof.Gen.KernelIdeal.Frame
import proofs.«179862_j65481071409271_1_alg».proof.Proof.Gen.ReferenceIdeal
import proofs.«179862_j65481071409271_1_alg».proof.Proof.Gen.Pre_finite_inputs
import proofs.«179862_j65481071409271_1_alg».proof.Proof.Gen.KernelIdeal.Value
import proofs.«179862_j65481071409271_1_alg».proof.Proof.Gen.ReferenceIdeal.Run
import proofs.«179862_j65481071409271_1_alg».proof.Proof.Gen.ReferenceIdeal.Read
import proofs.«179862_j65481071409271_1_alg».proof.Proof.GramBlocks
import proofs.«179862_j65481071409271_1_alg».proof.Proof.GramRef
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference's run, with what it computes forgotten. -/
theorem frame_reference : Cert.frame_ReferenceIdeal := fun m ρ _ =>
  (θ_run Cert.ReferenceIdeal.defs _ _).mono (fun _ h c => (h c).2) (Cert.ReferenceIdeal.Value.run (F := Ideal) m ρ)

/-- From arguments that agree, both programs end at the Gram matrix of those arguments. -/
theorem algebraic : Cert.algebraic_KernelIdeal_ReferenceIdeal := by
  intro m ρ m' ρ' _ hagree
  refine ⟨_, Cert.Gram.Blocks.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v16_eq, Cert.Gram.Ref.result_eq_gram, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
